-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x64 : Shape := ⟨3, ![32, 1024, 64]⟩
abbrev S32 : Shape := ⟨1, ![32]⟩
abbrev S_ : Shape := ⟨0, ![]⟩

class Facts : Prop where
  bcast_S_S32x1024x64 : S_.BroadcastsInDim S32x1024x64 (![] : Fin 0 → Fin S32x1024x64.rank)
  reducesTo_S32x1024x64_S_d0_1_2 : S32x1024x64.ReducesTo [0, 1, 2] S_
  h_S_ : 0 < S_.numel

variable [Facts]

def fn {F : FTy → Type} [FloatOps F] (main_arg0 : FVec F S32x1024x64 .f32) (main_arg1 : FVec F S32x1024x64 .f32) (main_arg2 : FVec F S32x1024x64 .f32) (main_arg3 : IVec S32 32) : IVec S_ 1 :=
  let main_v0 : FVec F S32x1024x64 .f32 := Host.absf main_arg0
  let main_cst : FVec F S_ .f32 := constant S_ .f32 0x7F800000#32
  let main_v1 : FVec F S32x1024x64 .f32 := broadcastInDim S32x1024x64 ![] bcast_S_S32x1024x64 main_cst
  let main_v2 : IVec S32x1024x64 1 := cmpf .olt main_v0 main_v1
  let main_c : IVec S_ 1 := constantI S_ 1 1#1
  let main_v3 : IVec S_ 1 := (fun x v => Host.reduce IntOp.andi x v reducesTo_S32x1024x64_S_d0_1_2 h_S_) main_v2 main_c
  let main_v4 : FVec F S32x1024x64 .f32 := Host.absf main_arg1
  let main_cst_0 : FVec F S_ .f32 := constant S_ .f32 0x7F800000#32
  let main_v5 : FVec F S32x1024x64 .f32 := broadcastInDim S32x1024x64 ![] bcast_S_S32x1024x64 main_cst_0
  let main_v6 : IVec S32x1024x64 1 := cmpf .olt main_v4 main_v5
  let main_c_1 : IVec S_ 1 := constantI S_ 1 1#1
  let main_v7 : IVec S_ 1 := (fun x v => Host.reduce IntOp.andi x v reducesTo_S32x1024x64_S_d0_1_2 h_S_) main_v6 main_c_1
  let main_v8 : IVec S_ 1 := andi main_v3 main_v7
  let main_v9 : FVec F S32x1024x64 .f32 := Host.absf main_arg2
  let main_cst_2 : FVec F S_ .f32 := constant S_ .f32 0x7F800000#32
  let main_v10 : FVec F S32x1024x64 .f32 := broadcastInDim S32x1024x64 ![] bcast_S_S32x1024x64 main_cst_2
  let main_v11 : IVec S32x1024x64 1 := cmpf .olt main_v9 main_v10
  let main_c_3 : IVec S_ 1 := constantI S_ 1 1#1
  let main_v12 : IVec S_ 1 := (fun x v => Host.reduce IntOp.andi x v reducesTo_S32x1024x64_S_d0_1_2 h_S_) main_v11 main_c_3
  let main_v13 : IVec S_ 1 := andi main_v8 main_v12
  main_v13
-- ==== Kernel.lean ====
abbrev S32x1024x64 : Shape := ⟨3, ![32, 1024, 64]⟩
abbrev S32 : Shape := ⟨1, ![32]⟩
abbrev S1x1024x64 : Shape := ⟨3, ![1, 1024, 64]⟩
abbrev S1 : Shape := ⟨1, ![1]⟩
abbrev S1024x64 : Shape := ⟨2, ![1024, 64]⟩
abbrev S1024x1 : Shape := ⟨2, ![1024, 1]⟩
abbrev S64x1024 : Shape := ⟨2, ![64, 1024]⟩
abbrev S1024x1024 : Shape := ⟨2, ![1024, 1024]⟩
abbrev S1024 : Shape := ⟨1, ![1024]⟩

abbrev nBuf : Space → Nat
  | .hbm => 4
  | .vmem => 8
  | .smem => 1
  | _ => 0

abbrev bufTy : (tb : Table) → Fin (tcTables nBuf tb) → BufTy
  | .hbm, ⟨0, _⟩ => ⟨S32x1024x64, .f32⟩
  | .hbm, ⟨1, _⟩ => ⟨S32x1024x64, .f32⟩
  | .hbm, ⟨2, _⟩ => ⟨S32x1024x64, .f32⟩
  | .hbm, ⟨3, _⟩ => ⟨S32x1024x64, .f32⟩
  | .local _ .vmem, ⟨0, _⟩ => ⟨S1x1024x64, .f32⟩
  | .local _ .vmem, ⟨1, _⟩ => ⟨S1x1024x64, .f32⟩
  | .local _ .vmem, ⟨2, _⟩ => ⟨S1x1024x64, .f32⟩
  | .local _ .vmem, ⟨3, _⟩ => ⟨S1x1024x64, .f32⟩
  | .local _ .vmem, ⟨4, _⟩ => ⟨S1x1024x64, .f32⟩
  | .local _ .vmem, ⟨5, _⟩ => ⟨S1x1024x64, .f32⟩
  | .local _ .vmem, ⟨6, _⟩ => ⟨S1x1024x64, .f32⟩
  | .local _ .vmem, ⟨7, _⟩ => ⟨S1x1024x64, .f32⟩
  | .local _ .smem, ⟨0, _⟩ => ⟨S32, .i32⟩
  | _, _ => ⟨S32x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  numel1_S1 : S1.numel = 1
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  iota_S1024x1_d0_w32 : S1024x1.Iotas .tc 32 [0]
  natLt_1_32 : 1 < 32
  broadcasts_S1024x1_S1024x64 : S1024x1.Broadcasts S1024x64
  bitsLt_bf16_f32 : FTy.bits .bf16 < FTy.bits .f32
  transposes_S1024x64_p1_0_S64x1024 : S1024x64.Transposes [1, 0] S64x1024
  reduces_S1024x1024_S1024 : S1024x1024.Reduces [1] S1024
  shapeCasts_S1024_S1024x1 : S1024.ShapeCasts S1024x1
  broadcasts_S1024x1_S1024x1024 : S1024x1.Broadcasts S1024x1024
  shapeCasts_S1024x64_S1x1024x64 : S1024x64.ShapeCasts S1x1024x64
  dot_S1024x64_S64x1024_S1024x1024_1_0_0_1_n_n_wf : DotDims.WF S1024x64 S64x1024 S1024x1024 [1] [0] [0] [1] [] []
  dot_S1024x1024_S1024x64_S1024x64_1_0_0_1_n_n_wf : DotDims.WF S1024x1024 S1024x64 S1024x64 [1] [0] [0] [1] [] []
  hrank0 : 0 < grid0.rank
  k0_off1_inb : ∀ i : grid0.Coords, ∀ a, (k0_off1 i) a + S1.size a ≤ S32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S32x1024x64.size a
  hwx0_0 : ∀ i : grid0.Coords, EltTy.bits .f32 = 32 ∨ (Rect.block (s := S32x1024x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S32x1024x64.size a
  hwx0_1 : ∀ i : grid0.Coords, EltTy.bits .f32 = 32 ∨ (Rect.block (s := S32x1024x64) S1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S32x1024x64.size a
  hwx0_2 : ∀ i : grid0.Coords, EltTy.bits .f32 = 32 ∨ (Rect.block (s := S32x1024x64) S1x1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S32x1024x64.size a
  hwx0_3 : ∀ i : grid0.Coords, EltTy.bits .f32 = 32 ∨ (Rect.block (s := S32x1024x64) S1x1024x64.size (cc0_transform_3 i) (hinb0_3 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev spec0_0 : Pipeline.WinSpec sig grid0.rank :=
  Pipeline.WinSpec.ofSpec (Memref.whole main_arg0) S1x1024x64.size reads0_0 false false 2 stage0_0 sem0_0 nbuf0_0 hstage0_0

abbrev spec0_1 : Pipeline.WinSpec sig grid0.rank :=
  Pipeline.WinSpec.ofSpec (Memref.whole main_arg1) S1x1024x64.size reads0_1 false false 2 stage0_1 sem0_1 nbuf0_1 hstage0_1

abbrev spec0_2 : Pipeline.WinSpec sig grid0.rank :=
  Pipeline.WinSpec.ofSpec (Memref.whole main_arg2) S1x1024x64.size reads0_2 false false 2 stage0_2 sem0_2 nbuf0_2 hstage0_2

abbrev spec0_3 : Pipeline.WinSpec sig grid0.rank :=
  Pipeline.WinSpec.ofSpec (Memref.whole main_v0) S1x1024x64.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 | 2 => cc0_transform_2 | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | ⟨_ + 4, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S32x1024x64 : Shape := ⟨3, ![32, 1024, 64]⟩
abbrev S32 : Shape := ⟨1, ![32]⟩
abbrev S1024 : Shape := ⟨1, ![1024]⟩
abbrev S1x1024 : Shape := ⟨2, ![1, 1024]⟩
abbrev S32x1 : Shape := ⟨2, ![32, 1]⟩
abbrev S32x1024 : Shape := ⟨2, ![32, 1024]⟩
abbrev S32x1024x1 : Shape := ⟨3, ![32, 1024, 1]⟩
abbrev S32x1024x1024 : Shape := ⟨3, ![32, 1024, 1024]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S32x1024x64, .f32⟩
  | .hbm, ⟨1, _⟩ => ⟨S32x1024x64, .f32⟩
  | .hbm, ⟨2, _⟩ => ⟨S32x1024x64, .f32⟩
  | .hbm, ⟨3, _⟩ => ⟨S32, .i32⟩
  | .hbm, ⟨4, _⟩ => ⟨S1024, .i32⟩
  | .hbm, ⟨5, _⟩ => ⟨S1x1024, .i32⟩
  | .hbm, ⟨6, _⟩ => ⟨S32x1, .i32⟩
  | .hbm, ⟨7, _⟩ => ⟨S32x1024, .i32⟩
  | .hbm, ⟨8, _⟩ => ⟨S32x1024, .i32⟩
  | .hbm, ⟨9, _⟩ => ⟨S32x1024, .i1⟩
  | .hbm, ⟨10, _⟩ => ⟨S32x1024x1, .i1⟩
  | .hbm, ⟨11, _⟩ => ⟨S32x1024x1, .f32⟩
  | .hbm, ⟨12, _⟩ => ⟨S32x1024x64, .f32⟩
  | .hbm, ⟨13, _⟩ => ⟨S32x1024x64, .f32⟩
  | .hbm, ⟨14, _⟩ => ⟨S32x1024x64, .f32⟩
  | .hbm, ⟨15, _⟩ => ⟨S32x1024x64, .f32⟩
  | .hbm, ⟨16, _⟩ => ⟨S32x1024x64, .f32⟩
  | .hbm, ⟨17, _⟩ => ⟨S32x1024x64, .f32⟩
  | .hbm, ⟨18, _⟩ => ⟨S32x1024x1024, .f32⟩
  | .hbm, ⟨19, _⟩ => ⟨S_, .f32⟩
  | .hbm, ⟨20, _⟩ => ⟨S32x1024x1024, .f32⟩
  | .hbm, ⟨21, _⟩ => ⟨S32x1024x1024, .i1⟩
  | .hbm, ⟨22, _⟩ => ⟨S_, .f32⟩
  | .hbm, ⟨23, _⟩ => ⟨S32x1024x1024, .f32⟩
  | .hbm, ⟨24, _⟩ => ⟨S32x1024x1024, .f32⟩
  | .hbm, ⟨25, _⟩ => ⟨S_, .f32⟩
  | .hbm, ⟨26, _⟩ => ⟨S32x1024x1024, .f32⟩
  | .hbm, ⟨27, _⟩ => ⟨S32x1024x1024, .f32⟩
  | .hbm, ⟨28, _⟩ => ⟨S_, .f32⟩
  | .hbm, ⟨29, _⟩ => ⟨S32x1024, .f32⟩
  | .hbm, ⟨30, _⟩ => ⟨S_, .f32⟩
  | .hbm, ⟨31, _⟩ => ⟨S32x1024, .f32⟩
  | .hbm, ⟨32, _⟩ => ⟨S32x1024, .f32⟩
  | .hbm, ⟨33, _⟩ => ⟨S32x1024x1, .f32⟩
  | .hbm, ⟨34, _⟩ => ⟨S32x1024x1024, .f32⟩
  | .hbm, ⟨35, _⟩ => ⟨S32x1024x1024, .f32⟩
  | .hbm, ⟨36, _⟩ => ⟨S32x1024x1024, .f32⟩
  | .hbm, ⟨37, _⟩ => ⟨S_, .f32⟩
  | .hbm, ⟨38, _⟩ => ⟨S32x1024, .f32⟩
  | .hbm, ⟨39, _⟩ => ⟨S32x1024x1, .f32⟩
  | .hbm, ⟨40, _⟩ => ⟨S32x1024x1024, .f32⟩
  | .hbm, ⟨41, _⟩ => ⟨S32x1024x1024, .f32⟩
  | .hbm, ⟨42, _⟩ => ⟨S32x1024x64, .f32⟩
  | _, _ => ⟨S32x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_call0_v0 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S32_S32x1_0 : S32.BroadcastsInDim S32x1 (![0] : Fin 1 → Fin S32x1.rank)
  bcast_S1x1024_S32x1024_0_1 : S1x1024.BroadcastsInDim S32x1024 (![0, 1] : Fin 2 → Fin S32x1024.rank)
  bcast_S32x1_S32x1024_0_1 : S32x1.BroadcastsInDim S32x1024 (![0, 1] : Fin 2 → Fin S32x1024.rank)
  bcast_S32x1024_S32x1024x1_0_1 : S32x1024.BroadcastsInDim S32x1024x1 (![0, 1] : Fin 2 → Fin S32x1024x1.rank)
  bcast_S32x1024x1_S32x1024x64_0_1_2 : S32x1024x1.BroadcastsInDim S32x1024x64 (![0, 1, 2] : Fin 3 → Fin S32x1024x64.rank)
  bcast_S_S32x1024x1024 : S_.BroadcastsInDim S32x1024x1024 (![] : Fin 0 → Fin S32x1024x1024.rank)
  reducesTo_S32x1024x1024_S32x1024_d2 : S32x1024x1024.ReducesTo [2] S32x1024
  h_S_ : 0 < S_.numel
  bcast_S_S32x1024 : S_.BroadcastsInDim S32x1024 (![] : Fin 0 → Fin S32x1024.rank)
  bcast_S32x1024x1_S32x1024x1024_0_1_2 : S32x1024x1.BroadcastsInDim S32x1024x1024 (![0, 1, 2] : Fin 3 → Fin S32x1024x1024.rank)
  dot_S32x1024x64_S32x1024x64_S32x1024x1024_2_2_1_1_0_0_wf : DotDims.WF S32x1024x64 S32x1024x64 S32x1024x1024 [2] [2] [1] [1] [0] [0]
  dot_S32x1024x1024_S32x1024x64_S32x1024x64_2_1_1_2_0_0_wf : DotDims.WF S32x1024x1024 S32x1024x64 S32x1024x64 [2] [1] [1] [2] [0] [0]

variable [Facts₀]

def dot_S32x1024x64_S32x1024x64_S32x1024x1024_2_2_1_1_0_0 : DotDims S32x1024x64 S32x1024x64 S32x1024x1024 where
  lhsContracting := [2]
  rhsContracting := [2]
  lhsNonContracting := [1]
  rhsNonContracting := [1]
  lhsBatch := [0]
  rhsBatch := [0]
  wf := dot_S32x1024x64_S32x1024x64_S32x1024x1024_2_2_1_1_0_0_wf
def dot_S32x1024x1024_S32x1024x64_S32x1024x64_2_1_1_2_0_0 : DotDims S32x1024x1024 S32x1024x64 S32x1024x64 where
  lhsContracting := [2]
  rhsContracting := [1]
  lhsNonContracting := [1]
  rhsNonContracting := [2]
  lhsBatch := [0]
  rhsBatch := [0]
  wf := dot_S32x1024x1024_S32x1024x64_S32x1024x64_2_1_1_2_0_0_wf

class Facts : Prop extends Facts₀ where

variable [Facts]
-- ==== Proof.Spec.lean ====
/-
  Masked scaled-dot-product attention for ONE batch, on the extended reals, over plain coordinates.

  A batch is three [1024, 64] arrays q, k, v and one 32-bit length word w.  Row s is KEPT when
  s < w as signed words; a dropped row of q, k or v is multiplied by 0.  The score of query row s
  against key row t is the inner product over the 64 features of the masked rows; a score that is
  exactly 0 is replaced by the constant 1e-10 (as its f32 pattern reads), and the result divided
  by 8.  Each row of scaled scores goes through a softmax: subtract the row's maximum (taken from
  -inf), exponentiate, divide by the row's sum.  The output at (s, d) is the weighted sum over key
  rows t of the masked v.

  Two scalar facts let a program that spells these steps differently meet this form: a one-bit
  word widened to 32 bits and read signed is the bit read unsigned; and multiplying by the
  pattern of 0.125 is dividing by the pattern of 8.0, on every extended real.
-/
import Idealize.ShloMosaic.Lib.ValueIdx
import Idealize.ShloMosaic.PureOps.Ideal.Laws

noncomputable section

namespace Cert.Attn

open Idealize.ShloMosaic Idealize.ShloMosaic.ValueIdx

/-! ## Scalar facts -/

/-- A one-bit word, zero-extended to 32 bits and read as a signed integer, is the bit itself. -/
theorem bit_signed_eq_unsigned (b : BitVec 1) :
    (((b.setWidth 32).toInt : ℝ) : EReal) = ((b.toNat : ℝ) : EReal) := by
  have h : b = 0#1 ∨ b = 1#1 := by
    rcases Nat.lt_or_ge b.toNat 1 with h | h
    · left; apply BitVec.eq_of_toNat_eq; simpa using Nat.lt_one_iff.mp h
    · right; apply BitVec.eq_of_toNat_eq
      have := b.isLt; simp at this ⊢; omega
  rcases h with rfl | rfl <;> simp

/-- The f32 pattern of 8.0 denotes the real 8. -/
theorem ofBits_eight : Ideal.ofBits .f32 0x41000000#32 = ((8 : ℝ) : EReal) := by
  simp [Ideal.ofBits, Ideal.ieee, -EReal.coe_mul]; norm_num

/-- The f32 pattern of 0.125 denotes the real 1/8. -/
theorem ofBits_eighth : Ideal.ofBits .f32 0x3E000000#32 = ((1 / 8 : ℝ) : EReal) := by
  simp [Ideal.ofBits, Ideal.ieee, -EReal.coe_mul]; norm_num

/-- On every extended real, the product with 0.125 is the quotient by 8.0. -/
theorem mul_eighth_eq_div_eight (x : EReal) :
    x * Ideal.ofBits .f32 0x3E000000#32 = Ideal.div x (Ideal.ofBits .f32 0x41000000#32) := by
  rw [ofBits_eight, ofBits_eighth, Ideal.div_coe (by norm_num : (8 : ℝ) ≠ 0)]

/-! ## One batch -/

section Batch
variable (q k v : Fin 1024 → Fin 64 → EReal) (w : BitVec 32)

/-- 1 when row s lies below the length word (signed comparison of 32-bit words), else 0. -/
def keep (s : Fin 1024) : EReal :=
  (((IntOp.cmpi .slt (BitVec.ofNat 32 s.val) w).toNat : ℝ) : EReal)

/-- The inner product of masked query row s and masked key row t. -/
def score (s t : Fin 1024) : EReal :=
  ∑ d : Fin 64, (q s d * keep w s) * (k t d * keep w t)

/-- A score that is exactly zero is replaced by the pattern of 1e-10. -/
def filled (s t : Fin 1024) : EReal :=
  Scalar.select (Ideal.cmp .oeq (score q k w s t) (Ideal.ofBits .f32 0x00000000#32))
    (Ideal.ofBits .f32 0x2EDBE6FF#32) (score q k w s t)

/-- Divided by 8, the square root of the feature count. -/
def scaled (s t : Fin 1024) : EReal :=
  Ideal.div (filled q k w s t) (Ideal.ofBits .f32 0x41000000#32)

/-- The largest scaled score of row s, the maximum taken from -inf. -/
def rowMax (s : Fin 1024) : EReal :=
  max (Ideal.ofBits .f32 0xFF800000#32)
    ((Finset.univ : Finset (Fin 1024)).fold max (Ideal.ofBits .f32 0xFF800000#32) (fun t => scaled q k w s t))

/-- The exponential of a scaled score less its row's maximum. -/
def expo (s t : Fin 1024) : EReal :=
  Ideal.exp (scaled q k w s t - rowMax q k w s)

/-- The softmax denominator of row s. -/
def rowSum (s : Fin 1024) : EReal :=
  ∑ t : Fin 1024, expo q k w s t

/-- The softmax weight query row s gives key row t. -/
def weight (s t : Fin 1024) : EReal :=
  Ideal.div (expo q k w s t) (rowSum q k w s)

/-- The attention output at row s, feature d: the weights of row s against the masked values. -/
def rowOut (s : Fin 1024) (d : Fin 64) : EReal :=
  ∑ t : Fin 1024, weight q k w s t * (v t d * keep w t)

end Batch

/-! ## All batches -/

/-- The whole [32, 1024, 64] result: batch b's output computed from batch b's slices of the three
    arrays and entry b of the length table. -/
def attend (Q K V : (⟨3, ![32, 1024, 64]⟩ : Shape).Idx → EReal) (len : (⟨1, ![32]⟩ : Shape).Idx → BitVec 32) :
    (⟨3, ![32, 1024, 64]⟩ : Shape).Idx → EReal := fun i =>
  rowOut (fun s d => Q (ix3 ⟨(i 0).val, (i 0).isLt⟩ s d)) (fun s d => K (ix3 ⟨(i 0).val, (i 0).isLt⟩ s d))
    (fun s d => V (ix3 ⟨(i 0).val, (i 0).isLt⟩ s d)) (len (ix1 ⟨(i 0).val, (i 0).isLt⟩))
    ⟨(i 1).val, (i 1).isLt⟩ ⟨(i 2).val, (i 2).isLt⟩

/-- At explicit coordinates. -/
theorem attend_ix3 (Q K V : (⟨3, ![32, 1024, 64]⟩ : Shape).Idx → EReal) (len : (⟨1, ![32]⟩ : Shape).Idx → BitVec 32)
    (b : Fin 32) (s : Fin 1024) (d : Fin 64) :
    attend Q K V len (ix3 b s d)
      = rowOut (fun s d => Q (ix3 b s d)) (fun s d => K (ix3 b s d)) (fun s d => V (ix3 b s d)) (len (ix1 b)) s d := rfl

end Cert.Attn

end
-- ==== Proof.LibLaneOps.lean ====
/-
  Arrays of shape [k, w] whose last axis indexes independent samples ("lanes"): the layout
  operations a kernel body applies to them, each read at one entry.  A block of rows is the
  operand's rows shifted by the offset; a sum over the row axis at lane l is the sum of column
  l; a sum over the lane axis at row r is the sum of row r; a stack of one-row arrays read at
  row k is piece k's only row.  Nothing here mentions a program.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LaneOps

open Idealize.ShloMosaic Idealize.ShloMosaic.ValueIdx

variable {α : Type}

/-- Rows o, o+1, … of an [n, w] array: entry (r, l) of the slice is entry (o + r, l) of the operand. -/
theorem slice_rows_apply {n s w : ℕ} (o : ℕ) (x : (⟨2, ![n, w]⟩ : Shape).Idx → α)
    (h : (⟨2, ![n, w]⟩ : Shape).Slices ![o, 0] ⟨2, ![s, w]⟩) (r : Fin s) (l : Fin w) :
    extractStridedSlice ⟨2, ![s, w]⟩ ![o, 0] x h (ix2 r l)
      = x (ix2 ⟨o + r.val, Nat.lt_of_lt_of_le (Nat.add_lt_add_left r.isLt o) (h.2 0)⟩ l) :=
  extractStridedSlice_apply _ x h _ _ fun a => match a with
    | ⟨0, _⟩ => rfl
    | ⟨1, _⟩ => (Nat.zero_add _).symm

section AtIdeal
variable {φ : FTy}

/-- The source index over lane l with row k put back is (k, l). -/
theorem lift_rows {n w : ℕ} (h : (⟨2, ![n, w]⟩ : Shape).Reduces [0] ⟨1, ![w]⟩) (l : Fin w) (k : Fin n) :
    h.lift (ix1 l) k = ix2 k l := by
  funext c
  apply Fin.ext
  show h.liftVal (ix1 l) k.val c = (ix2 k l c).val
  unfold Shape.Reduces.liftVal
  match c with
  | ⟨0, _⟩ =>
    show (if _hc : (0 : ℕ) = 0 then k.val else _) = k.val
    rw [dif_pos rfl]
  | ⟨1, _⟩ =>
    show (if _hc : (1 : ℕ) = 0 then k.val else if _hlt : (1 : ℕ) < 0 then _ else l.val) = l.val
    rw [dif_neg Nat.one_ne_zero, dif_neg (Nat.not_lt_zero 1)]

/-- A sum over the row axis, at lane l: the sum of column l. -/
theorem sum_rows_apply {n w : ℕ} (src : FVec Ideal ⟨2, ![n, w]⟩ φ) (acc : BitVec φ.bits)
    (h : (⟨2, ![n, w]⟩ : Shape).Reduces [0] ⟨1, ![w]⟩) (hφ : FKind.Formats φ) (hacc : acc = FKind.add.neutral φ hφ)
    (l : Fin w) :
    multiReduction .add [0] ⟨1, ![w]⟩ src acc h hφ hacc (ix1 l) = ∑ k : Fin n, src (ix2 k l) := by
  rw [Ideal.multiReduction_add_single src acc h hφ hacc (ix1 l)]
  exact Finset.sum_congr rfl fun k _ => congrArg src (lift_rows h l k)

/-- The source index over row r with lane l put back is (r, l). -/
theorem lift_lanes {n w : ℕ} (h : (⟨2, ![n, w]⟩ : Shape).Reduces [1] ⟨1, ![n]⟩) (r : Fin n) (l : Fin w) :
    h.lift (ix1 r) l = ix2 r l := by
  funext c
  apply Fin.ext
  show h.liftVal (ix1 r) l.val c = (ix2 r l c).val
  unfold Shape.Reduces.liftVal
  match c with
  | ⟨0, _⟩ =>
    show (if _hc : (0 : ℕ) = 1 then l.val else if _hlt : (0 : ℕ) < 1 then r.val else _) = r.val
    rw [dif_neg Nat.zero_ne_one, dif_pos Nat.zero_lt_one]
  | ⟨1, _⟩ =>
    show (if _hc : (1 : ℕ) = 1 then l.val else _) = l.val
    rw [dif_pos rfl]

/-- A sum over the lane axis, at row r: the sum of row r. -/
theorem sum_lanes_apply {n w : ℕ} (src : FVec Ideal ⟨2, ![n, w]⟩ φ) (acc : BitVec φ.bits)
    (h : (⟨2, ![n, w]⟩ : Shape).Reduces [1] ⟨1, ![n]⟩) (hφ : FKind.Formats φ) (hacc : acc = FKind.add.neutral φ hφ)
    (r : Fin n) :
    multiReduction .add [1] ⟨1, ![n]⟩ src acc h hφ hacc (ix1 r) = ∑ l : Fin w, src (ix2 r l) := by
  rw [Ideal.multiReduction_add_single src acc h hφ hacc (ix1 r)]
  exact Finset.sum_congr rfl fun l _ => congrArg src (lift_lanes h r l)

/-- The exact sum over the row axis, at lane l: the sum of column l. -/
theorem reduceAdd_rows_apply {n w : ℕ} (src : (⟨2, ![n, w]⟩ : Shape).Idx → EReal)
    (h : (⟨2, ![n, w]⟩ : Shape).Reduces [0] ⟨1, ![w]⟩) (l : Fin w) :
    Ideal.reduceAdd h src (ix1 l) = ∑ k : Fin n, src (ix2 k l) := by
  rw [Ideal.reduceAdd_single h src (ix1 l)]
  exact Finset.sum_congr rfl fun k _ => congrArg src (lift_rows h l k)

/-- The exact sum over the lane axis, at row r: the sum of row r. -/
theorem reduceAdd_lanes_apply {n w : ℕ} (src : (⟨2, ![n, w]⟩ : Shape).Idx → EReal)
    (h : (⟨2, ![n, w]⟩ : Shape).Reduces [1] ⟨1, ![n]⟩) (r : Fin n) :
    Ideal.reduceAdd h src (ix1 r) = ∑ l : Fin w, src (ix2 r l) := by
  rw [Ideal.reduceAdd_single h src (ix1 r)]
  exact Finset.sum_congr rfl fun l _ => congrArg src (lift_lanes h r l)

end AtIdeal

/-- N one-row arrays stacked along the row axis: row k of the stack is piece k's row. -/
theorem stack_rows_apply {N w : ℕ} (f : Fin N → ((⟨2, ![1, w]⟩ : Shape).Idx → α))
    (h : Shape.Concatenates ((List.ofFn fun n : Fin N => ((⟨⟨2, ![1, w]⟩, f n⟩ : (s : Shape) × (s.Idx → α)))).map (·.1)) ⟨2, ![N, w]⟩ 0)
    (k : Fin N) (l : Fin w) :
    concatenate ⟨2, ![N, w]⟩ 0 (List.ofFn fun n : Fin N => ((⟨⟨2, ![1, w]⟩, f n⟩ : (s : Shape) × (s.Idx → α)))) h (ix2 k l)
      = f k (ix2 (0 : Fin 1) l) := by
  refine concatenate_ofFn_unit_apply (t := ⟨2, ![N, w]⟩) (s₁ := ⟨2, ![1, w]⟩) (0 : Fin 2) f h rfl rfl
    (ix2 k l) k rfl (ix2 (0 : Fin 1) l) fun b hb => ?_
  match b with
  | ⟨0, _⟩ => exact absurd rfl hb
  | ⟨1, _⟩ => rfl

/-- A sum over 21 indices written out, first index first. -/
theorem sum21 {M : Type} [AddCommMonoid M] (f : Fin 21 → M) :
    ∑ k : Fin 21, f k = f 0 + f 1 + f 2 + f 3 + f 4 + f 5 + f 6 + f 7 + f 8 + f 9 + f 10 + f 11 + f 12 + f 13 + f 14 + f 15 + f 16 + f 17 + f 18 + f 19 + f 20 := by
  simp only [Fin.sum_univ_castSucc, Fin.sum_univ_zero, zero_add]
  rfl

end Cert.LaneOps

end
-- ==== Proof.KernelRow.lean ====
/-
  The value one grid point's body stores, read at an entry: the body's arithmetic over its three
  loaded [1, 1024, 64] blocks and the length word is single-batch attention of those blocks.
-/
import proofs.«416725_j83150566851078_1_alg».proof.Proof.Gen.KernelIdeal.Skeleton
import proofs.«416725_j83150566851078_1_alg».proof.Proof.Spec
import proofs.«416725_j83150566851078_1_alg».proof.Proof.LibLaneOps
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Row

open Idealize.ShloMosaic Idealize.ShloMosaic.ValueIdx Cert.KernelIdeal Cert.KernelIdeal.Gen

/-! ## Column forms of the layout operations -/

section Columns
variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## The row mask and a masked block -/

/-- The mask column at row r: 1 when r lies below the length word, else 0. -/
theorem mask_apply (w : BitVec 32) (r : Fin 1024) :
    k0_pay2 (F := Ideal) w (ix2 r (0 : Fin 1)) = Cert.Attn.keep w r := by
  unfold k0_pay2
  show ((((IntOp.cmpi .slt (iota .tc S1024x1 32 [0] iota_S1024x1_d0_w32 (ix2 r (0 : Fin 1))) w).setWidth 32).toInt : ℝ) : EReal) = _
  rw [iota_single_apply, Cert.Attn.bit_signed_eq_unsigned]
  rfl

/-- A loaded block, read as a [1024, 64] array and masked by rows: entry (t, d) is the block's entry
    (0, t, d) times the mask of row t. -/
theorem masked_apply (w : BitVec 32) (x : Vec Ideal S1x1024x64 .f32) (t : Fin 1024) (d : Fin 64) :
    k0_pay3 (F := Ideal) w x (ix2 t d) = x (ix3 (0 : Fin 1) t d) * Cert.Attn.keep w t := by
  unfold k0_pay3
  show shapeCast S1024x64 x shapeCasts_S1x1024x64_S1024x64 (ix2 t d)
      * broadcastTo S1024x64 (k0_pay2 (F := Ideal) w) broadcasts_S1024x1_S1024x64 (ix2 t d) = _
  rw [shapeCast_1ab_ab_apply, broadcastTo_a1_ab_apply, mask_apply]

/-! ## The two products -/

/-- In the first product's left operand index the row coordinate is the result's row. -/
theorem lhs_dot1_0 (i : S1024x1024.Idx) (q : dot_S1024x64_S64x1024_S1024x1024_1_0_0_1_n_n.contr.Idx) :
    (dot_S1024x64_S64x1024_S1024x1024_1_0_0_1_n_n.lhsIdx i q 0).val = (i 0).val := by
  unfold DotDims.lhsIdx
  rw [dif_neg (show ¬(0 : Fin S1024x64.rank) ∈ dot_S1024x64_S64x1024_S1024x1024_1_0_0_1_n_n.lhsBatch by decide), dif_pos (show (0 : Fin S1024x64.rank) ∈ dot_S1024x64_S64x1024_S1024x1024_1_0_0_1_n_n.lhsNonContracting by decide)]
  rfl
/-- Its feature coordinate is the contraction position. -/
theorem lhs_dot1_1 (i : S1024x1024.Idx) (q : dot_S1024x64_S64x1024_S1024x1024_1_0_0_1_n_n.contr.Idx) :
    (dot_S1024x64_S64x1024_S1024x1024_1_0_0_1_n_n.lhsIdx i q 1).val = (q ⟨0, by decide⟩).val :=
  dot_S1024x64_S64x1024_S1024x1024_1_0_0_1_n_n.lhsIdx_val_of_single rfl i q
/-- In the right operand index the feature coordinate is the contraction position. -/
theorem rhs_dot1_0 (i : S1024x1024.Idx) (q : dot_S1024x64_S64x1024_S1024x1024_1_0_0_1_n_n.contr.Idx) :
    (dot_S1024x64_S64x1024_S1024x1024_1_0_0_1_n_n.rhsIdx i q 0).val = (q ⟨0, by decide⟩).val :=
  dot_S1024x64_S64x1024_S1024x1024_1_0_0_1_n_n.rhsIdx_val_of_single rfl i q
/-- Its column coordinate is the result's column. -/
theorem rhs_dot1_1 (i : S1024x1024.Idx) (q : dot_S1024x64_S64x1024_S1024x1024_1_0_0_1_n_n.contr.Idx) :
    (dot_S1024x64_S64x1024_S1024x1024_1_0_0_1_n_n.rhsIdx i q 1).val = (i 1).val := by
  unfold DotDims.rhsIdx
  rw [dif_neg (show ¬(1 : Fin S64x1024.rank) ∈ dot_S1024x64_S64x1024_S1024x1024_1_0_0_1_n_n.rhsBatch by decide), dif_pos (show (1 : Fin S64x1024.rank) ∈ dot_S1024x64_S64x1024_S1024x1024_1_0_0_1_n_n.rhsNonContracting by decide)]
  rfl

/-- A [1024, 64] array times the transpose of another, into zero: entry (s, t) is the inner product of
    row s of the first with row t of the second. -/
theorem rows_dot_apply (a b : FVec Ideal S1024x64 .bf16) (s t : Fin 1024) :
    matmul dot_S1024x64_S64x1024_S1024x1024_1_0_0_1_n_n none a
        (transpose S64x1024 [1, 0] b transposes_S1024x64_p1_0_S64x1024) (constant (F := Ideal) S1024x1024 .f32 0x00000000#32) (ix2 s t)
      = ∑ d : Fin 64, a (ix2 s d) * b (ix2 t d) := by
  generalize hbt : transpose S64x1024 [1, 0] b transposes_S1024x64_p1_0_S64x1024 = bt
  simp only [matmul]
  rw [Ideal.matmul_constant_zero_apply, ← Equiv.sum_comp (contrEquiv1 dot_S1024x64_S64x1024_S1024x1024_1_0_0_1_n_n 64 rfl rfl).symm]
  refine Finset.sum_congr rfl fun k _ => ?_
  have hk := contrEquiv1_symm_val dot_S1024x64_S64x1024_S1024x1024_1_0_0_1_n_n 64 rfl rfl k
  have el : dot_S1024x64_S64x1024_S1024x1024_1_0_0_1_n_n.lhsIdx (ix2 s t) ((contrEquiv1 dot_S1024x64_S64x1024_S1024x1024_1_0_0_1_n_n 64 rfl rfl).symm k) = ix2 s k := funext fun c => Fin.ext (by
    match c with
    | ⟨0, _⟩ => exact lhs_dot1_0 _ _
    | ⟨1, _⟩ => exact (lhs_dot1_1 _ _).trans hk)
  have er : dot_S1024x64_S64x1024_S1024x1024_1_0_0_1_n_n.rhsIdx (ix2 s t) ((contrEquiv1 dot_S1024x64_S64x1024_S1024x1024_1_0_0_1_n_n 64 rfl rfl).symm k) = ix2 k t := funext fun c => Fin.ext (by
    match c with
    | ⟨0, _⟩ => exact (rhs_dot1_0 _ _).trans hk
    | ⟨1, _⟩ => exact rhs_dot1_1 _ _)
  rw [el, er, ← hbt, transpose_ix2_apply]

/-- In the second product's left operand index the row coordinate is the result's row. -/
theorem lhs_dot2_0 (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
/-- Its column coordinate is the contraction position. -/
theorem lhs_dot2_1 (i : S1024x64.Idx) (q : dot_S1024x1024_S1024x64_S1024x64_1_0_0_1_n_n.contr.Idx) :
    (dot_S1024x1024_S1024x64_S1024x64_1_0_0_1_n_n.lhsIdx i q 1).val = (q ⟨0, by decide⟩).val :=
  dot_S1024x1024_S1024x64_S1024x64_1_0_0_1_n_n.lhsIdx_val_of_single rfl i q
/-- In the right operand index the row coordinate is the contraction position. -/
theorem rhs_dot2_0 (i : S1024x64.Idx) (q : dot_S1024x1024_S1024x64_S1024x64_1_0_0_1_n_n.contr.Idx) :
    (dot_S1024x1024_S1024x64_S1024x64_1_0_0_1_n_n.rhsIdx i q 0).val = (q ⟨0, by decide⟩).val :=
  dot_S1024x1024_S1024x64_S1024x64_1_0_0_1_n_n.rhsIdx_val_of_single rfl i q
/-- Its feature coordinate is the result's feature. -/
theorem rhs_dot2_1 (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-- A [1024, 1024] array times a [1024, 64] array, into zero: entry (s, d) is the sum over t of the
    products of row s of the first with column d of the second. -/
theorem weights_dot_apply (p : FVec Ideal S1024x1024 .bf16) (v : FVec Ideal S1024x64 .bf16) (s : Fin 1024) (d : Fin 64) :
    matmul dot_S1024x1024_S1024x64_S1024x64_1_0_0_1_n_n none p v (constant (F := Ideal) S1024x64 .f32 0x00000000#32) (ix2 s d)
      = ∑ t : Fin 1024, p (ix2 s t) * v (ix2 t d) := by
  simp only [matmul]
  rw [Ideal.matmul_constant_zero_apply, ← Equiv.sum_comp (contrEquiv1 dot_S1024x1024_S1024x64_S1024x64_1_0_0_1_n_n 1024 rfl rfl).symm]
  refine Finset.sum_congr rfl fun k _ => ?_
  have hk := contrEquiv1_symm_val dot_S1024x1024_S1024x64_S1024x64_1_0_0_1_n_n 1024 rfl rfl k
  have el : dot_S1024x1024_S1024x64_S1024x64_1_0_0_1_n_n.lhsIdx (ix2 s d) ((contrEquiv1 dot_S1024x1024_S1024x64_S1024x64_1_0_0_1_n_n 1024 rfl rfl).symm k) = ix2 s k := funext fun c => Fin.ext (by
    match c with
    | ⟨0, _⟩ => exact lhs_dot2_0 _ _
    | ⟨1, _⟩ => exact (lhs_dot2_1 _ _).trans hk)
  have er : dot_S1024x1024_S1024x64_S1024x64_1_0_0_1_n_n.rhsIdx (ix2 s d) ((contrEquiv1 dot_S1024x1024_S1024x64_S1024x64_1_0_0_1_n_n 1024 rfl rfl).symm k) = ix2 k d := funext fun c => Fin.ext (by
    match c with
    | ⟨0, _⟩ => exact (rhs_dot2_0 _ _).trans hk
    | ⟨1, _⟩ => exact rhs_dot2_1 _ _)
  rw [el, er]

/-! ## A row reduction from -inf -/

/-- The maximum over the column axis from the pattern of -inf, at row s: the fold of max over row s. -/
theorem max_lanes_apply (z : FVec Ideal S1024x1024 .f32) (hφ : FKind.Formats .f32)
    (hacc : (0xFF800000#32 : BitVec 32) = FKind.maximumf.neutral .f32 hφ) (s : Fin 1024) :
    multiReduction .maximumf [1] S1024 z 0xFF800000#32 reduces_S1024x1024_S1024 hφ hacc (ix1 s)
      = (Finset.univ : Finset (Fin 1024)).fold max (Ideal.ofBits .f32 0xFF800000#32) (fun t => z (ix2 s t)) := by
  refine (Ideal.multiReduction_maximumf_single z 0xFF800000#32 reduces_S1024x1024_S1024 hφ hacc (ix1 s)).trans ?_
  exact Finset.fold_congr fun t _ => congrArg z (Cert.LaneOps.lift_lanes reduces_S1024x1024_S1024 s t)

/-- A splat of an f32 pattern reads the extended real the pattern denotes, everywhere. -/
theorem splat_apply {s : Shape} (b : BitVec 32) (i : s.Idx) :
    broadcast s (Scalar.ofBits (F := Ideal) .f32 b) i = Ideal.ofBits .f32 b := rfl

/-- An exponential at an index is the exponential of the element. -/
theorem exp_apply {s : Shape} {φ : FTy} (a : FVec Ideal s φ) (i : s.Idx) : exp a i = Ideal.exp (a i) := rfl

/-! ## Inside the weights block -/

/-- A loaded [1, 1024, 64] block read as a [1024, 64] array. -/
abbrev blk (x : Vec Ideal S1x1024x64 .f32) : Fin 1024 → Fin 64 → EReal := fun s d => x (ix3 (0 : Fin 1) s d)

section Weights
variable (w : BitVec 32) (x0 x1 : Vec Ideal S1x1024x64 .f32)

/-- The scores: the masked first block against the masked second block, row by row. -/
def scores : FVec Ideal S1024x1024 .f32 :=
  matmul dot_S1024x64_S64x1024_S1024x1024_1_0_0_1_n_n none (k0_pay3 (F := Ideal) w x0)
    (transpose S64x1024 [1, 0] (k0_pay3 (F := Ideal) w x1) transposes_S1024x64_p1_0_S64x1024)
    (constant (F := Ideal) S1024x1024 .f32 0x00000000#32)

/-- The scores with every exact zero replaced, times the pattern of 0.125. -/
def scaledScores : FVec Ideal S1024x1024 .f32 :=
  mulf (select (cmpf .oeq (scores w x0 x1) (broadcast S1024x1024 (Scalar.ofBits (F := Ideal) .f32 0x00000000#32)))
      (broadcast S1024x1024 (Scalar.ofBits (F := Ideal) .f32 0x2EDBE6FF#32)) (scores w x0 x1))
    (broadcast S1024x1024 (Scalar.ofBits (F := Ideal) .f32 0x3E000000#32))

/-- Each row's maximum, taken from -inf, as a vector over the rows. -/
def rowMaxes : FVec Ideal S1024 .f32 :=
  maximumf (broadcast S1024 (Scalar.ofBits (F := Ideal) .f32 0xFF800000#32))
    (multiReduction .maximumf [1] S1024 (scaledScores w x0 x1) 0xFF800000#32 reduces_S1024x1024_S1024 (.inl rfl) rfl)

/-- The exponentials of the scaled scores less their row's maximum. -/
def exps : FVec Ideal S1024x1024 .f32 :=
  exp (subf (scaledScores w x0 x1)
    (broadcastTo S1024x1024 (shapeCast S1024x1 (rowMaxes w x0 x1) shapeCasts_S1024_S1024x1) broadcasts_S1024x1_S1024x1024))

/-- The weights block is the exponentials, each divided by its row's sum. -/
theorem weights_eq :
    k0_pay4 (F := Ideal) w x0 x1
      = truncf .bf16 (divf (exps w x0 x1)
          (broadcastTo S1024x1024
            (shapeCast S1024x1 (multiReduction .add [1] S1024 (exps w x0 x1) 0x00000000#32 reduces_S1024x1024_S1024 (.inl rfl) rfl)
              shapeCasts_S1024_S1024x1) broadcasts_S1024x1_S1024x1024)) bitsLt_bf16_f32 := rfl

theorem scores_apply (s t : Fin 1024) :
    scores w x0 x1 (ix2 s t) = Cert.Attn.score (blk x0) (blk x1) w s t := by
  unfold scores
  rw [rows_dot_apply]
  exact Finset.sum_congr rfl fun d _ => by rw [masked_apply, masked_apply]

theorem scaledScores_apply (s t : Fin 1024) :
    scaledScores w x0 x1 (ix2 s t) = Cert.Attn.scaled (blk x0) (blk x1) w s t := by
  unfold scaledScores
  show Scalar.select (Ideal.cmp .oeq (scores w x0 x1 (ix2 s t)) (Ideal.ofBits .f32 0x00000000#32))
      (Ideal.ofBits .f32 0x2EDBE6FF#32) (scores w x0 x1 (ix2 s t)) * Ideal.ofBits .f32 0x3E000000#32 = _
  rw [Cert.Attn.mul_eighth_eq_div_eight, scores_apply]
  rfl

theorem rowMaxes_apply (s : Fin 1024) :
    rowMaxes w x0 x1 (ix1 s) = Cert.Attn.rowMax (blk x0) (blk x1) w s := by
  unfold rowMaxes Cert.Attn.rowMax
  refine (maximumf_apply _ _ (ix1 s)).trans ?_
  refine congrArg₂ max (splat_apply 0xFF800000#32 (ix1 s)) ?_
  refine (max_lanes_apply (scaledScores w x0 x1) (.inl rfl) rfl s).trans ?_
  exact Finset.fold_congr fun t _ => scaledScores_apply w x0 x1 s t

theorem exps_apply (s t : Fin 1024) :
    exps w x0 x1 (ix2 s t) = Cert.Attn.expo (blk x0) (blk x1) w s t := by
  unfold exps Cert.Attn.expo
  refine (exp_apply _ (ix2 s t)).trans (congrArg Ideal.exp ?_)
  refine (subf_apply _ _ (ix2 s t)).trans ?_
  rw [scaledScores_apply, broadcastTo_a1_ab_apply, shapeCast_a_a1_apply, rowMaxes_apply]

/-- The weights block at (s, t) is the softmax weight row s gives row t. -/
theorem weights_apply (s t : Fin 1024) :
    k0_pay4 (F := Ideal) w x0 x1 (ix2 s t) = Cert.Attn.weight (blk x0) (blk x1) w s t := by
  rw [weights_eq]
  unfold Cert.Attn.weight Cert.Attn.rowSum
  refine (truncf_apply (ψ := .bf16) _ bitsLt_bf16_f32 (ix2 s t)).trans ?_
  refine (divf_apply _ _ (ix2 s t)).trans ?_
  refine congrArg₂ Ideal.div (exps_apply w x0 x1 s t) ?_
  rw [broadcastTo_a1_ab_apply, shapeCast_a_a1_apply]
  refine (Cert.LaneOps.sum_lanes_apply (exps w x0 x1) 0x00000000#32 reduces_S1024x1024_S1024 (.inl rfl) rfl s).trans ?_
  exact Finset.sum_congr rfl fun t' _ => exps_apply w x0 x1 s t'

end Weights

/-! ## The stored block -/

/-- The stored block at (0, s, d) is the attention output of the three loaded blocks, read as
    [1024, 64] arrays, under the length word w. -/
theorem payload_apply (w : BitVec 32) (x0 x1 x2 : Vec Ideal S1x1024x64 .f32) (s : Fin 1024) (d : Fin 64) :
    k0_pay1 (F := Ideal) (k0_pay3 (F := Ideal) w x2) (k0_pay4 (F := Ideal) w x0 x1) (constant (F := Ideal) S1024x64 .f32 0x00000000#32) (ix3 (0 : Fin 1) s d)
      = Cert.Attn.rowOut (fun s d => x0 (ix3 (0 : Fin 1) s d)) (fun s d => x1 (ix3 (0 : Fin 1) s d)) (fun s d => x2 (ix3 (0 : Fin 1) s d)) w s d := by
  unfold k0_pay1
  show shapeCast S1x1024x64
      (matmul dot_S1024x1024_S1024x64_S1024x64_1_0_0_1_n_n none (k0_pay4 (F := Ideal) w x0 x1) (k0_pay3 (F := Ideal) w x2)
        (constant (F := Ideal) S1024x64 .f32 0x00000000#32))
      shapeCasts_S1024x64_S1x1024x64 (ix3 (0 : Fin 1) s d) = _
  rw [shapeCast_ab_1ab_apply, weights_dot_apply]
  unfold Cert.Attn.rowOut
  exact Finset.sum_congr rfl fun t _ => by rw [weights_apply, masked_apply]

end Cert.KernelIdeal.Row

end
-- ==== Proof.KernelValue.lean ====
/-
  What the kernel's run leaves in its result array.  The grid has one point per batch; at point t
  the body loads batch t's block of each of the three arrays and entry t of the length table,
  stores single-batch attention of them over the whole output block, and the block is written
  back to rows t of the result.  The 32 blocks tile the result, so after the run the result is
  the whole-array attention of the arguments.
-/
import proofs.«416725_j83150566851078_1_alg».proof.Proof.Gen.KernelIdeal.Frame
import proofs.«416725_j83150566851078_1_alg».proof.Proof.KernelRow
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.RunValue

open Cert.KernelIdeal Cert.KernelIdeal.Gen

section AnyInstance
variable {F : FTy → Type} [FloatOps F]

theorem hz : (![0, 0, 0] : Fin 3 → Nat) = fun _ => 0 := funext fun a => by fin_cases a <;> rfl

/-- The word the body reads from the length table at grid coordinate i. -/
abbrev lenWord (c : Dev nD) (i : grid0.Coords) (xt0 : TbBuf0 (F := F) c tbM0_0) : Elt F .i32 :=
  View.readAt (Elt F) tbM0_0.view (Rect.unit (s := S32) (k0_off1 i) S1.size (k0_off1_inb i)).toLoadRect xt0
    (Shape.Idx.first (Nat.lt_of_lt_of_eq Nat.one_pos numel1_S1.symm))

/-- The body's one store covers the output block: what it leaves there is its payload, the body's
    arithmetic of the three loaded blocks and the length word. -/
theorem out_eq (c : Dev nD) (i : grid0.Coords) (arg2 : Memref sig .tc .vmem S1x1024x64 .f32) (harg2 : arg2.IsWhole)
    (arg3 : Memref sig .tc .vmem S1x1024x64 .f32) (harg3 : arg3.IsWhole) (arg4 : Memref sig .tc .vmem S1x1024x64 .f32) (harg4 : arg4.IsWhole)
    (arg5 : Memref sig .tc .vmem S1x1024x64 .f32) (harg5 : arg5.IsWhole)
    (x0 x1 x2 : Vec F S1x1024x64 .f32) (xt0 : TbBuf0 (F := F) c tbM0_0) :
    out0_A_3 c i arg2 harg2 arg3 harg3 arg4 harg4 arg5 harg5 x0 x1 x2 xt0
      = k0_pay1 (k0_pay3 (lenWord c i xt0) x2) (k0_pay4 (lenWord c i xt0) x0 x1) (constant S1024x64 .f32 0x00000000#32) := by
  unfold out0_A_3
  rw [View.read_writes_eq_canon _ _ _ (cover0_A_3 c i arg2 harg2 arg3 harg3 arg4 harg4 arg5 harg5 x0 x1 x2 xt0)]
  unfold kernelRun0_A
  dsimp only
  sl_unfold_words
  rw [View.canon_unit_zero hz]
  simp only [View.readAt_eq_ld, harg2.read_unread, harg3.read_unread, harg4.read_unread, View.ld_unit_zero (S := S1x1024x64) hz]
  rfl

end AnyInstance

/-! ## At the ideal instance: what each point reads -/

section AtIdeal
variable (m : (ℓ : Loc nD τ sig) → Buf (Elt Ideal) ℓ) (ρ : Dev nD → PrngReg)

/-- The grid's points in closed form: coordinate 0 of point t is t, and every window's block index
    at point t is (t, 0, 0). -/
theorem point_facts : ∀ t : Fin grid0.N, (grid0.coords t 0).val = t.val
    ∧ cc0_transform_0 (grid0.coords t) = ![t.val, 0, 0] ∧ cc0_transform_1 (grid0.coords t) = ![t.val, 0, 0]
    ∧ cc0_transform_2 (grid0.coords t) = ![t.val, 0, 0] ∧ cc0_transform_3 (grid0.coords t) = ![t.val, 0, 0] := by
  decide +kernel

/-- The word read at point t is entry t of the length table. -/
theorem lenWord_eq (c : Dev nD) (t : Fin grid0.N) (b : Fin 32) (hb : b.val = t.val) :
    lenWord (F := Ideal) c (grid0.coords t) (tbl m 0) = V m c main_arg3 (ix1 b) := by
  obtain rfl : c = 0 := Subsingleton.elim _ _
  show V m 0 main_arg3 _ = V m 0 main_arg3 (ix1 b)
  refine congrArg (V m 0 main_arg3) (funext fun a => Fin.ext ?_)
  have h1 : k0_off1 (grid0.coords t) (0 : Fin 1) = (grid0.coords t 0).val := congrFun (k0_off1_eq (grid0.coords t)) 0
  have h2 := (point_facts t).1
  match a with
  | ⟨0, _⟩ =>
    first
      | (show k0_off1 (grid0.coords t) (0 : Fin 1) + 1 * (0 : ℕ) = (b : ℕ); omega)
      | (show k0_off1 (grid0.coords t) (0 : Fin 1) + (0 : ℕ) = (b : ℕ); omega)

/-- Input window 0's block at point t is batch t of the first argument. -/
theorem iblk0_apply (hO : Ok m) (c : Dev nD) (t : Fin (cfgM m hO).N) (b : Fin 32) (hb : b.val = t.val) (s : Fin 1024) (d : Fin 64) :
    (iblk m hO c 0 t : Vec Ideal S1x1024x64 .f32) (ix3 (0 : Fin 1) s d) = V m c main_arg0 (ix3 b s d) := by
  show V m c main_arg0 ((((cfgM m hO).win 0).blk t).view.emb (ix3 (0 : Fin 1) s d)) = V m c main_arg0 (ix3 b s d)
  refine congrArg (V m c main_arg0) (funext fun a => Fin.ext ?_)
  obtain ⟨e, e0, e1, e2, e3⟩ := point_facts t
  match a with
  | ⟨0, _⟩ =>
    show cc0_transform_0 (grid0.coords t) (0 : Fin 3) * 1 + 1 * ((0 : Fin 1) : ℕ) = (b : ℕ)
    rw [e0]; show t.val * 1 + 1 * 0 = b.val; omega
  | ⟨1, _⟩ =>
    show cc0_transform_0 (grid0.coords t) (1 : Fin 3) * 1024 + 1 * (s : ℕ) = (s : ℕ)
    rw [e0]; show 0 * 1024 + 1 * s.val = s.val; omega
  | ⟨2, _⟩ =>
    show cc0_transform_0 (grid0.coords t) (2 : Fin 3) * 64 + 1 * (d : ℕ) = (d : ℕ)
    rw [e0]; show 0 * 64 + 1 * d.val = d.val; omega

/-- Input window 1's block at point t is batch t of argument 1. -/
theorem iblk1_apply (hO : Ok m) (c : Dev nD) (t : Fin (cfgM m hO).N) (b : Fin 32) (hb : b.val = t.val) (s : Fin 1024) (d : Fin 64) :
    (iblk m hO c 1 t : Vec Ideal S1x1024x64 .f32) (ix3 (0 : Fin 1) s d) = V m c main_arg1 (ix3 b s d) := by
  show V m c main_arg1 ((((cfgM m hO).win 1).blk t).view.emb (ix3 (0 : Fin 1) s d)) = V m c main_arg1 (ix3 b s d)
  refine congrArg (V m c main_arg1) (funext fun a => Fin.ext ?_)
  obtain ⟨e, e0, e1, e2, e3⟩ := point_facts t
  match a with
  | ⟨0, _⟩ =>
    show cc0_transform_1 (grid0.coords t) (0 : Fin 3) * 1 + 1 * ((0 : Fin 1) : ℕ) = (b : ℕ)
    rw [e1]; show t.val * 1 + 1 * 0 = b.val; omega
  | ⟨1, _⟩ =>
    show cc0_transform_1 (grid0.coords t) (1 : Fin 3) * 1024 + 1 * (s : ℕ) = (s : ℕ)
    rw [e1]; show 0 * 1024 + 1 * s.val = s.val; omega
  | ⟨2, _⟩ =>
    show cc0_transform_1 (grid0.coords t) (2 : Fin 3) * 64 + 1 * (d : ℕ) = (d : ℕ)
    rw [e1]; show 0 * 64 + 1 * d.val = d.val; omega

/-- Input window 2's block at point t is batch t of argument 2. -/
theorem iblk2_apply (hO : Ok m) (c : Dev nD) (t : Fin (cfgM m hO).N) (b : Fin 32) (hb : b.val = t.val) (s : Fin 1024) (d : Fin 64) :
    (iblk m hO c 2 t : Vec Ideal S1x1024x64 .f32) (ix3 (0 : Fin 1) s d) = V m c main_arg2 (ix3 b s d) := by
  show V m c main_arg2 ((((cfgM m hO).win 2).blk t).view.emb (ix3 (0 : Fin 1) s d)) = V m c main_arg2 (ix3 b s d)
  refine congrArg (V m c main_arg2) (funext fun a => Fin.ext ?_)
  obtain ⟨e, e0, e1, e2, e3⟩ := point_facts t
  match a with
  | ⟨0, _⟩ =>
    show cc0_transform_2 (grid0.coords t) (0 : Fin 3) * 1 + 1 * ((0 : Fin 1) : ℕ) = (b : ℕ)
    rw [e2]; show t.val * 1 + 1 * 0 = b.val; omega
  | ⟨1, _⟩ =>
    show cc0_transform_2 (grid0.coords t) (1 : Fin 3) * 1024 + 1 * (s : ℕ) = (s : ℕ)
    rw [e2]; show 0 * 1024 + 1 * s.val = s.val; omega
  | ⟨2, _⟩ =>
    show cc0_transform_2 (grid0.coords t) (2 : Fin 3) * 64 + 1 * (d : ℕ) = (d : ℕ)
    rw [e2]; show 0 * 64 + 1 * d.val = d.val; omega

/-- Entry (0, s, d) of the output window's block at point t is entry (t, s, d) of the result array. -/
theorem emb3_apply (hO : Ok m) (t : Fin (cfgM m hO).N) (b : Fin 32) (hb : b.val = t.val) (s : Fin 1024) (d : Fin 64) :
    (((cfgM m hO).win 3).blk t).view.emb (ix3 (0 : Fin 1) s d) = ix3 b s d := by
  refine funext fun a => Fin.ext ?_
  obtain ⟨e, e0, e1, e2, e3⟩ := point_facts t
  match a with
  | ⟨0, _⟩ =>
    show cc0_transform_3 (grid0.coords t) (0 : Fin 3) * 1 + 1 * ((0 : Fin 1) : ℕ) = (b : ℕ)
    rw [e3]; show t.val * 1 + 1 * 0 = b.val; omega
  | ⟨1, _⟩ =>
    show cc0_transform_3 (grid0.coords t) (1 : Fin 3) * 1024 + 1 * (s : ℕ) = (s : ℕ)
    rw [e3]; show 0 * 1024 + 1 * s.val = s.val; omega
  | ⟨2, _⟩ =>
    show cc0_transform_3 (grid0.coords t) (2 : Fin 3) * 64 + 1 * (d : ℕ) = (d : ℕ)
    rw [e3]; show 0 * 64 + 1 * d.val = d.val; omega

/-- The whole-array attention of the arguments as the region finds them. -/
abbrev result (c : Dev nD) : (⟨3, ![32, 1024, 64]⟩ : Shape).Idx → EReal :=
  Cert.Attn.attend (V m c main_arg0) (V m c main_arg1) (V m c main_arg2) (V m c main_arg3)

/-- What point t's body leaves in the output block: batch t of the whole-array attention. -/
theorem outsAt_apply (hO : Ok m) (c : Dev nD) (t : Fin (cfgM m hO).N) (b : Fin 32) (hb : b.val = t.val) (s : Fin 1024) (d : Fin 64) :
    (outsAt0 m hO c t : Vec Ideal S1x1024x64 .f32) (ix3 (0 : Fin 1) s d) = result m c (ix3 b s d) := by
  unfold outsAt0
  refine (congrFun (out_eq (F := Ideal) c (grid0.coords t) (ms0_0 m hO t) (hs0_0 m hO t) (ms0_1 m hO t) (hs0_1 m hO t)
    (ms0_2 m hO t) (hs0_2 m hO t) (ms0_3 m hO t) (hs0_3 m hO t) (iblk m hO c 0 t) (iblk m hO c 1 t) (iblk m hO c 2 t) (tbl m 0))
    (ix3 (0 : Fin 1) s d)).trans ?_
  refine (Cert.KernelIdeal.Row.payload_apply (lenWord (F := Ideal) c (grid0.coords t) (tbl m 0))
    (iblk m hO c 0 t) (iblk m hO c 1 t) (iblk m hO c 2 t) s d).trans ?_
  rw [result, Cert.Attn.attend_ix3]
  have q0 : (fun s d => (iblk m hO c 0 t : Vec Ideal S1x1024x64 .f32) (ix3 (0 : Fin 1) s d)) = fun s d => V m c main_arg0 (ix3 b s d) :=
    funext fun s => funext fun d => iblk0_apply m hO c t b hb s d
  have q1 : (fun s d => (iblk m hO c 1 t : Vec Ideal S1x1024x64 .f32) (ix3 (0 : Fin 1) s d)) = fun s d => V m c main_arg1 (ix3 b s d) :=
    funext fun s => funext fun d => iblk1_apply m hO c t b hb s d
  have q2 : (fun s d => (iblk m hO c 2 t : Vec Ideal S1x1024x64 .f32) (ix3 (0 : Fin 1) s d)) = fun s d => V m c main_arg2 (ix3 b s d) :=
    funext fun s => funext fun d => iblk2_apply m hO c t b hb s d
  rw [q0, q1, q2, lenWord_eq m c t b hb]

/-- What point t writes back is block t of the whole-array attention. -/
theorem flushed_eq (hO : Ok m) (c : Dev nD) (t : Fin (cfgM m hO).N) :
    (dats m hO 0 c).flushed 3 t = (((cfgM m hO).win 3).blk t).view.read (Elt Ideal) (result m c) := by
  show ((cfgM m hO).win 3).cut (grid0.coords t) ((dats m hO 0 c).after 3 t) = _
  rw [after0_3]
  have h32 : t.val < 32 := Nat.lt_of_lt_of_eq t.isLt N_0
  refine funext fun (y : S1x1024x64.Idx) => ?_
  obtain ⟨z, s, d, rfl⟩ : ∃ (z : Fin 1) (s : Fin 1024) (d : Fin 64), y = ix3 z s d := ⟨y 0, y 1, y 2, eq_ix3 y⟩
  obtain rfl : z = 0 := Subsingleton.elim _ _
  show (outsAt0 m hO c t : Vec Ideal S1x1024x64 .f32) (ix3 (0 : Fin 1) s d) = result m c ((((cfgM m hO).win 3).blk t).view.emb (ix3 (0 : Fin 1) s d))
  rw [emb3_apply m hO t ⟨t.val, h32⟩ rfl s d]
  exact outsAt_apply m hO c t ⟨t.val, h32⟩ rfl s d

-- the window's shape is the array's only after unfolding the pipeline's configuration at the table's contents
set_option backward.isDefEq.respectTransparency.types false in
/-- Every entry of the result lies in the block of the point its batch coordinate names. -/
theorem cover (hO : Ok m) (i : S32x1024x64.Idx) :
    ∃ t : Fin (cfgM m hO).N, ((cfgM m hO).win 3).flush t = true ∧ i ∈ (((cfgM m hO).win 3).blk t).view.set := by
  have hi0 : (i 0 : ℕ) < 32 := (i 0).isLt
  have hi1 : (i 1 : ℕ) < 1024 := (i 1).isLt
  have hi2 : (i 2 : ℕ) < 64 := (i 2).isLt
  have hN : (i 0 : ℕ) < grid0.N := Nat.lt_of_lt_of_eq hi0 N_0.symm
  refine ⟨⟨(i 0 : ℕ), hN⟩, flush0_3 (adm m hO) _, ?_⟩
  obtain ⟨e, e0, e1, e2, e3⟩ := point_facts ⟨(i 0 : ℕ), hN⟩
  show i ∈ ((View.whole main_v0).slice (((cfgM m hO).win 3).rect ⟨(i 0 : ℕ), hN⟩)).set
  rw [View.set_slice_whole]
  refine Rect.mem_set_unit.mpr fun a => ?_
  match a with
  | ⟨0, _⟩ =>
    show cc0_transform_3 (grid0.coords ⟨(i 0 : ℕ), hN⟩) (0 : Fin 3) * 1 ≤ (i 0 : ℕ) ∧ (i 0 : ℕ) < cc0_transform_3 (grid0.coords ⟨(i 0 : ℕ), hN⟩) (0 : Fin 3) * 1 + 1
    rw [e3]; show (i 0 : ℕ) * 1 ≤ (i 0 : ℕ) ∧ (i 0 : ℕ) < (i 0 : ℕ) * 1 + 1; omega
  | ⟨1, _⟩ =>
    show cc0_transform_3 (grid0.coords ⟨(i 0 : ℕ), hN⟩) (1 : Fin 3) * 1024 ≤ (i 1 : ℕ) ∧ (i 1 : ℕ) < cc0_transform_3 (grid0.coords ⟨(i 0 : ℕ), hN⟩) (1 : Fin 3) * 1024 + 1024
    rw [e3]; show 0 * 1024 ≤ (i 1 : ℕ) ∧ (i 1 : ℕ) < 0 * 1024 + 1024; omega
  | ⟨2, _⟩ =>
    show cc0_transform_3 (grid0.coords ⟨(i 0 : ℕ), hN⟩) (2 : Fin 3) * 64 ≤ (i 2 : ℕ) ∧ (i 2 : ℕ) < cc0_transform_3 (grid0.coords ⟨(i 0 : ℕ), hN⟩) (2 : Fin 3) * 64 + 64
    rw [e3]; show 0 * 64 ≤ (i 2 : ℕ) ∧ (i 2 : ℕ) < 0 * 64 + 64; omega

/-- The 32 blocks tile the result: after the run it holds the whole-array attention. -/
theorem final (hO : Ok m) (c : Dev nD) : (dats m hO 0 c).arrAt 3 (cfgM m hO).N = result m c :=
  (dats m hO 0 c).arrAt_eq_of_cover 3 (result m c) (fun t _ => flushed_eq m hO c t) (cover m hO)

/-- The run, read: the result array at the whole-array attention of the arguments, the arguments unchanged. -/
theorem run (hO : Ok m) : θ_run defs (onTc (τ := τ) (main (F := Ideal))) ⟨m, fun _ => 0, ρ⟩ fun r => ∀ c : Dev nD,
      r.2.mem ((c.tc : Thread nD τ).loc main_v0)
        = Cert.Attn.attend (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1 3).trans (final m hO c),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).1 2).trans (((dats m hO 0 c).arrAt_in 2 rfl _).trans ((A_eq m hO c 2).trans (V_main_arg2 m c))),
      ((h c).2 main_arg3 (by decide : main_arg3 ∈ Pipeline.restRefs sig spec0)).trans (V_main_arg3 m c)⟩)
    (run_main m ρ hO)

end AtIdeal

end Cert.KernelIdeal.RunValue

end
-- ==== Proof.RefRow.lean ====
/-
  The reference's result read at an entry: entry (b, s, d) of the last stage is single-batch
  attention of batch b's slices of the three arguments under entry b of the length table.

  The stages are read one named quantity at a time, at explicit coordinates: the 0/1 mask of a
  row, the three masked arrays, the score, the filled and scaled score, the row maximum, the
  exponential, the row sum, the softmax weight, and the weighted sum of the masked values.
-/
import proofs.«416725_j83150566851078_1_alg».proof.Proof.Gen.ReferenceIdeal.Read
import proofs.«416725_j83150566851078_1_alg».proof.Proof.Spec
import Idealize.ShloMosaic.Lib.Pipeline.Value
import Idealize.ShloMosaic.Lib.ValueIdx
import Idealize.ShloMosaic.PureOps.Ideal.Laws

noncomputable section

namespace Cert.ReferenceIdeal.Row

open Idealize.ShloMosaic Idealize.ShloMosaic.ValueIdx Cert.ReferenceIdeal Cert.ReferenceIdeal.Gen Cert.ReferenceIdeal.Read

section Stages
variable (Q K V : (⟨S32x1024x64, .f32⟩ : BufTy).Contents (Elt Ideal)) (len : (⟨S32, .i32⟩ : BufTy).Contents (Elt Ideal))
variable (b : Fin 32) (s t : Fin 1024) (d : Fin 64)

/-! ## The mask: 1 on a row below the batch's length word, else 0 -/

theorem idx6 : idx_main_v6 (ix3 b s (0 : Fin 1)) = ix2 b s :=
  funext fun a => Fin.ext (by match a with | ⟨0, _⟩ => rfl | ⟨1, _⟩ => rfl)
theorem idx3 : idx_main_v3 (ix2 b s) = ix2 (0 : Fin 1) s :=
  funext fun a => Fin.ext (by match a with | ⟨0, _⟩ => rfl | ⟨1, _⟩ => rfl)
theorem idx1 : idx_main_v1 (ix2 (0 : Fin 1) s) = ix1 s :=
  funext fun a => Fin.ext (by match a with | ⟨0, _⟩ => rfl)
theorem idx4 : idx_main_v4 (ix2 b s) = ix2 b (0 : Fin 1) :=
  funext fun a => Fin.ext (by match a with | ⟨0, _⟩ => rfl | ⟨1, _⟩ => rfl)
theorem idx2 : idx_main_v2 (ix2 b (0 : Fin 1)) = ix1 b :=
  funext fun a => Fin.ext (by match a with | ⟨0, _⟩ => rfl)

/-- The converted comparison of the row number with the batch's length word. -/
theorem mask_apply :
    val_main_v7 (F := Ideal) len (ix3 b s (0 : Fin 1)) = Cert.Attn.keep (len (ix1 b)) s := by
  rw [val_main_v7_apply, val_main_v6_apply, idx6, val_main_v5_apply, val_main_v3_apply, idx3, val_main_v1_apply, idx1,
    val_main_v0_apply, val_main_v4_apply, idx4, val_main_v2_apply, idx2]
  rfl

/-! ## The three masked arrays -/

theorem idx8 : idx_main_v8 (ix3 b s d) = ix3 b s (0 : Fin 1) :=
  funext fun a => Fin.ext (by match a with | ⟨0, _⟩ => rfl | ⟨1, _⟩ => rfl | ⟨2, _⟩ => rfl)
theorem idx10 : idx_main_v10 (ix3 b s d) = ix3 b s (0 : Fin 1) :=
  funext fun a => Fin.ext (by match a with | ⟨0, _⟩ => rfl | ⟨1, _⟩ => rfl | ⟨2, _⟩ => rfl)
theorem idx12 : idx_main_v12 (ix3 b s d) = ix3 b s (0 : Fin 1) :=
  funext fun a => Fin.ext (by match a with | ⟨0, _⟩ => rfl | ⟨1, _⟩ => rfl | ⟨2, _⟩ => rfl)

/-- The masked queries. -/
theorem maskedQ_apply :
    val_main_v9 (F := Ideal) Q len (ix3 b s d) = Q (ix3 b s d) * Cert.Attn.keep (len (ix1 b)) s := by
  rw [val_main_v9_apply, val_main_v8_apply, idx8, mask_apply]
  rfl
/-- The masked keys. -/
theorem maskedK_apply :
    val_main_v11 (F := Ideal) K len (ix3 b s d) = K (ix3 b s d) * Cert.Attn.keep (len (ix1 b)) s := by
  rw [val_main_v11_apply, val_main_v10_apply, idx10, mask_apply]
  rfl
/-- The masked values. -/
theorem maskedV_apply :
    val_main_v13 (F := Ideal) V len (ix3 b s d) = V (ix3 b s d) * Cert.Attn.keep (len (ix1 b)) s := by
  rw [val_main_v13_apply, val_main_v12_apply, idx12, mask_apply]
  rfl

/-! ## The score, its fill at zero, and the scaling -/

theorem lidx14 : lidx_main_v14 (ix3 b s t) d = ix3 b s d :=
  funext fun a => Fin.ext (by match a with | ⟨0, _⟩ => rfl | ⟨1, _⟩ => rfl | ⟨2, _⟩ => rfl)
theorem ridx14 : ridx_main_v14 (ix3 b s t) d = ix3 b t d :=
  funext fun a => Fin.ext (by match a with | ⟨0, _⟩ => rfl | ⟨1, _⟩ => rfl | ⟨2, _⟩ => rfl)

/-- The inner product of masked query row s and masked key row t of batch b. -/
theorem score_apply :
    val_main_v14 (F := Ideal) Q K len (ix3 b s t)
      = Cert.Attn.score (fun s d => Q (ix3 b s d)) (fun s d => K (ix3 b s d)) (len (ix1 b)) s t := by
  rw [val_main_v14_apply]
  unfold Cert.Attn.score
  refine Finset.sum_congr rfl fun d _ => ?_
  rw [lidx14, ridx14, maskedQ_apply, maskedK_apply]

/-- A zero score replaced by the small constant. -/
theorem filled_apply :
    val_main_v17 (F := Ideal) Q K len (ix3 b s t)
      = Cert.Attn.filled (fun s d => Q (ix3 b s d)) (fun s d => K (ix3 b s d)) (len (ix1 b)) s t := by
  rw [val_main_v17_apply, val_main_v16_apply, val_main_v15_apply, val_main_cst_apply, val_main_call0_v0_apply,
    val_main_cst_0_apply, score_apply]
  rfl

/-- Divided by the constant 8. -/
theorem scaled_apply :
    val_main_v19 (F := Ideal) Q K len (ix3 b s t)
      = Cert.Attn.scaled (fun s d => Q (ix3 b s d)) (fun s d => K (ix3 b s d)) (len (ix1 b)) s t := by
  rw [val_main_v19_apply, val_main_v18_apply, val_main_cst_1_apply, filled_apply]
  rfl

/-! ## The row maximum -/

/-- Row (b, s) of a [32, 1024, 1024] array with coordinate t put back on the last axis is (b, s, t). -/
theorem lift_last (h : S32x1024x1024.Reduces [2] S32x1024) :
    h.lift (ix2 b s) t = ix3 b s t := by
  funext c
  apply Fin.ext
  show h.liftVal (ix2 b s) t.val c = (ix3 b s t c).val
  unfold Shape.Reduces.liftVal
  match c with
  | ⟨0, _⟩ =>
    show (if _hc : (0 : ℕ) = 2 then t.val else if _hlt : (0 : ℕ) < 2 then b.val else _) = b.val
    rw [dif_neg (by decide), dif_pos (by decide)]
  | ⟨1, _⟩ =>
    show (if _hc : (1 : ℕ) = 2 then t.val else if _hlt : (1 : ℕ) < 2 then s.val else _) = s.val
    rw [dif_neg (by decide), dif_pos (by decide)]
  | ⟨2, _⟩ =>
    show (if _hc : (2 : ℕ) = 2 then t.val else _) = t.val
    rw [dif_pos rfl]

/-- The maximum over key rows, from -inf, of the scaled scores of query row s. -/
theorem foldMax_apply :
    val_main_v20 (F := Ideal) Q K len (ix2 b s)
      = (Finset.univ : Finset (Fin 1024)).fold max (Ideal.ofBits .f32 0xFF800000#32)
          (fun t => Cert.Attn.scaled (fun s d => Q (ix3 b s d)) (fun s d => K (ix3 b s d)) (len (ix1 b)) s t) := by
  have h : S32x1024x1024.Reduces [2] S32x1024 := by decide
  unfold val_main_v20
  rw [Host.reduce_eq_fold_single FloatOps.maximumf _ _ reducesTo_S32x1024x1024_S32x1024_d2 h h_S_ (ix2 b s)]
  have hf : (val_main_v19 (F := Ideal) Q K len ∘ h.lift (ix2 b s))
      = fun t : Fin 1024 => Cert.Attn.scaled (fun s d => Q (ix3 b s d)) (fun s d => K (ix3 b s d)) (len (ix1 b)) s t :=
    funext fun (t : Fin 1024) => by
      show val_main_v19 (F := Ideal) Q K len (h.lift (ix2 b s) t) = _
      rw [lift_last b s t h, scaled_apply]
  rw [hf]
  rfl

/-- The row maximum, joined once more with -inf. -/
theorem rowMax_apply :
    val_main_v22 (F := Ideal) Q K len (ix2 b s)
      = Cert.Attn.rowMax (fun s d => Q (ix3 b s d)) (fun s d => K (ix3 b s d)) (len (ix1 b)) s := by
  rw [val_main_v22_apply, val_main_v21_apply, val_main_cst_3_apply, foldMax_apply]
  rfl

/-! ## The exponentials, their row sum, and the weights -/

theorem idx24 : idx_main_v24 (ix3 b s t) = ix3 b s (0 : Fin 1) :=
  funext fun a => Fin.ext (by match a with | ⟨0, _⟩ => rfl | ⟨1, _⟩ => rfl | ⟨2, _⟩ => rfl)
theorem idx23 : idx_main_v23 (ix3 b s (0 : Fin 1)) = ix2 b s :=
  funext fun a => Fin.ext (by match a with | ⟨0, _⟩ => rfl | ⟨1, _⟩ => rfl)

/-- The exponential of a scaled score less its row's maximum. -/
theorem expo_apply :
    val_main_v26 (F := Ideal) Q K len (ix3 b s t)
      = Cert.Attn.expo (fun s d => Q (ix3 b s d)) (fun s d => K (ix3 b s d)) (len (ix1 b)) s t := by
  rw [val_main_v26_apply, val_main_v25_apply, val_main_v24_apply, idx24, val_main_v23_apply, idx23, rowMax_apply, scaled_apply]
  rfl

theorem idx27 : idx_main_v27 (ix2 b s) t = ix3 b s t :=
  funext fun a => Fin.ext (by match a with | ⟨0, _⟩ => rfl | ⟨1, _⟩ => rfl | ⟨2, _⟩ => rfl)

/-- The sum over key rows of the exponentials of query row s: the initial value is zero. -/
theorem rowSum_apply :
    val_main_v27 (F := Ideal) Q K len (ix2 b s)
      = Cert.Attn.rowSum (fun s d => Q (ix3 b s d)) (fun s d => K (ix3 b s d)) (len (ix1 b)) s := by
  rw [val_main_v27_apply, val_main_cst_4_apply, Ideal.ofBits_def, Ideal.ofBits_zero_f32, zero_add]
  unfold Cert.Attn.rowSum
  refine Finset.sum_congr rfl fun t _ => ?_
  rw [idx27, expo_apply]

theorem idx29 : idx_main_v29 (ix3 b s t) = ix3 b s (0 : Fin 1) :=
  funext fun a => Fin.ext (by match a with | ⟨0, _⟩ => rfl | ⟨1, _⟩ => rfl | ⟨2, _⟩ => rfl)
theorem idx28 : idx_main_v28 (ix3 b s (0 : Fin 1)) = ix2 b s :=
  funext fun a => Fin.ext (by match a with | ⟨0, _⟩ => rfl | ⟨1, _⟩ => rfl)

/-- The exponential divided by its row's sum. -/
theorem weight_apply :
    val_main_v30 (F := Ideal) Q K len (ix3 b s t)
      = Cert.Attn.weight (fun s d => Q (ix3 b s d)) (fun s d => K (ix3 b s d)) (len (ix1 b)) s t := by
  rw [val_main_v30_apply, val_main_v29_apply, idx29, val_main_v28_apply, idx28, rowSum_apply, expo_apply]
  rfl

/-! ## The weighted sum of the masked values -/

theorem lidx31 : lidx_main_v31 (ix3 b s d) t = ix3 b s t :=
  funext fun a => Fin.ext (by match a with | ⟨0, _⟩ => rfl | ⟨1, _⟩ => rfl | ⟨2, _⟩ => rfl)
theorem ridx31 : ridx_main_v31 (ix3 b s d) t = ix3 b t d :=
  funext fun a => Fin.ext (by match a with | ⟨0, _⟩ => rfl | ⟨1, _⟩ => rfl | ⟨2, _⟩ => rfl)

end Stages

/-- The reference's last stage at (b, s, d). -/
theorem reference_apply (Q K V : (⟨S32x1024x64, .f32⟩ : BufTy).Contents (Elt Ideal)) (len : (⟨S32, .i32⟩ : BufTy).Contents (Elt Ideal))
    (b : Fin 32) (s : Fin 1024) (d : Fin 64) :
    val_main_v31 (F := Ideal) Q K V len (ix3 b s d)
      = Cert.Attn.rowOut (fun s d => Q (ix3 b s d)) (fun s d => K (ix3 b s d)) (fun s d => V (ix3 b s d)) (len (ix1 b)) s d := by
  rw [val_main_v31_apply]
  unfold Cert.Attn.rowOut
  refine Finset.sum_congr rfl fun t _ => ?_
  rw [lidx31, ridx31, weight_apply, maskedV_apply]

/-- The reference's last stage is the whole-array attention of its arguments. -/
theorem reference_eq (Q K V : (⟨S32x1024x64, .f32⟩ : BufTy).Contents (Elt Ideal)) (len : (⟨S32, .i32⟩ : BufTy).Contents (Elt Ideal)) :
    val_main_v31 (F := Ideal) Q K V len = Cert.Attn.attend Q K V len := by
  funext i
  obtain ⟨b, s, d, rfl⟩ : ∃ (b : Fin 32) (s : Fin 1024) (d : Fin 64), i = ix3 b s d := ⟨i 0, i 1, i 2, eq_ix3 i⟩
  rw [reference_apply, Cert.Attn.attend_ix3]

end Cert.ReferenceIdeal.Row

end
-- ==== Proof.lean ====
/-
  Masked scaled-dot-product attention over 32 batches of [1024, 64] queries, keys and values with
  a per-batch length: a kernel that handles one batch per grid point against the whole-array
  formula.

  Both programs compute, for batch b, the same function of batch b's slices and entry b of the
  length table: rows at or beyond the length are zeroed in all three arrays; scores are inner
  products of the masked rows; an exactly-zero score is replaced by 1e-10; the scores are scaled
  by 1/8 (the kernel multiplies by 0.125, the reference divides by 8: equal on every extended
  real); each row goes through a softmax taken from its maximum; the output is the weighted sum
  of the masked values.  Over the extended reals the kernel's bf16 casts are the identity, its two
  matrix products and its lane sums are the reference's sums, and its row maximum is the
  reference's, so no finiteness of the inputs is used.

  The kernel's index maps do not read the length table, so its frames hold with no condition on
  the table's words.  Its result array is read off the frame run block by block; the reference's
  is read stage by stage from its run; both are the specification's whole-array function.
-/
import proofs.«416725_j83150566851078_1_alg».proof.Defs
import proofs.«416725_j83150566851078_1_alg».proof.Proof.Gen.Kernel
import proofs.«416725_j83150566851078_1_alg».proof.Proof.Gen.Kernel.Frame
import proofs.«416725_j83150566851078_1_alg».proof.Proof.Gen.KernelIdeal
import proofs.«416725_j83150566851078_1_alg».proof.Proof.Gen.KernelIdeal.Frame
import proofs.«416725_j83150566851078_1_alg».proof.Proof.Gen.ReferenceIdeal
import proofs.«416725_j83150566851078_1_alg».proof.Proof.Gen.Pre_finite_inputs
import proofs.«416725_j83150566851078_1_alg».proof.Proof.Gen.ReferenceIdeal.Run
import proofs.«416725_j83150566851078_1_alg».proof.Proof.Gen.ReferenceIdeal.Read
import proofs.«416725_j83150566851078_1_alg».proof.Proof.Spec
import proofs.«416725_j83150566851078_1_alg».proof.Proof.KernelValue
import proofs.«416725_j83150566851078_1_alg».proof.Proof.RefRow
import Idealize.ShloMosaic.Adequacy
import Idealize.ShloMosaic.Init

noncomputable section

namespace Cert.Proof

open Idealize.ShloMosaic Idealize.SL.Sem

/-- The kernel's frame: the table-indexed side condition is vacuous (no index map reads the table). -/
theorem frame_k : Cert.frame_Kernel := fun m ρ _ => Cert.Kernel.Gen.frame m ρ True.intro

/-- The idealized kernel's frame, likewise. -/
theorem frame_ki : Cert.frame_KernelIdeal := fun m ρ _ => Cert.KernelIdeal.Gen.frame m ρ True.intro

/-- The reference's frame: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the four arguments, the kernel's result array and the reference's
    result both end at the whole-array attention of those arguments. -/
theorem algebraic : Cert.algebraic_KernelIdeal_ReferenceIdeal := by
  intro m ρ m' ρ' _ hagree
  refine ⟨fun c => Cert.Attn.attend (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.RunValue.run m ρ True.intro, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v31_eq, Cert.ReferenceIdeal.Row.reference_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
